-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x32x512 : Shape := ⟨4, ![64, 32, 32, 512]⟩
abbrev S512x16 : Shape := ⟨2, ![512, 16]⟩
abbrev S16 : Shape := ⟨1, ![16]⟩
abbrev S16x512 : Shape := ⟨2, ![16, 512]⟩
abbrev S512 : Shape := ⟨1, ![512]⟩
abbrev S_ : Shape := ⟨0, ![]⟩

class Facts : Prop where
  bcast_S_S64x32x32x512 : S_.BroadcastsInDim S64x32x32x512 (![] : Fin 0 → Fin S64x32x32x512.rank)
  reducesTo_S64x32x32x512_S_d0_1_2_3 : S64x32x32x512.ReducesTo [0, 1, 2, 3] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S16x512 1) : IVec S_ 1 :=
  let main_c_5 : IVec S_ 1 := constantI S_ 1 1#1
  let main_v17 : IVec S_ 1 := (fun x v => Host.reduce IntOp.andi x v reducesTo_S16x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S64x32x32x512 .f32) (main_arg1 : FVec F S512x16 .f32) (main_arg2 : FVec F S16 .f32) (main_arg3 : FVec F S16x512 .f32) (main_arg4 : FVec F S512 .f32) : IVec S_ 1 :=
  let main_v0 : FVec F S64x32x32x512 .f32 := Host.absf main_arg0
  let main_cst : FVec F S_ .f32 := constant S_ .f32 0x7F800000#32
  let main_v1 : FVec F S64x32x32x512 .f32 := broadcastInDim S64x32x32x512 ![] bcast_S_S64x32x32x512 main_cst
  let main_v2 : IVec S64x32x32x512 1 := cmpf .olt main_v0 main_v1
  let main_c : IVec S_ 1 := constantI S_ 1 1#1
  let main_v3 : IVec S_ 1 := (fun x v => Host.reduce IntOp.andi x v reducesTo_S64x32x32x512_S_d0_1_2_3 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x512 .f32 := Host.absf main_arg3
  let main_cst_4 : FVec F S_ .f32 := constant S_ .f32 0x7F800000#32
  let main_v15 : FVec F S16x512 .f32 := broadcastInDim S16x512 ![] bcast_S_S16x512 main_cst_4
  let main_v16 : IVec S16x512 1 := cmpf .olt main_v14 main_v15
  fn_part1 (F := F) main_arg4 main_v13 main_v16
-- ==== Kernel.lean ====
abbrev S64x32x32x512 : Shape := ⟨4, ![64, 32, 32, 512]⟩
abbrev S512x16 : Shape := ⟨2, ![512, 16]⟩
abbrev S16 : Shape := ⟨1, ![16]⟩
abbrev S16x512 : Shape := ⟨2, ![16, 512]⟩
abbrev S512 : Shape := ⟨1, ![512]⟩
abbrev S65536x512 : Shape := ⟨2, ![65536, 512]⟩
abbrev S1x16 : Shape := ⟨2, ![1, 16]⟩
abbrev S1x512 : Shape := ⟨2, ![1, 512]⟩
abbrev S2048x512 : Shape := ⟨2, ![2048, 512]⟩
abbrev S2048x16 : Shape := ⟨2, ![2048, 16]⟩
abbrev S2048 : Shape := ⟨1, ![2048]⟩
abbrev S2048x1 : Shape := ⟨2, ![2048, 1]⟩

abbrev nBuf : Space → Nat
  | .hbm => 10
  | .vmem => 8
  | .smem => 0
  | _ => 0

abbrev bufTy : (tb : Table) → Fin (tcTables nBuf tb) → BufTy
  | .hbm, ⟨0, _⟩ => ⟨S64x32x32x512, .f32⟩
  | .hbm, ⟨1, _⟩ => ⟨S512x16, .f32⟩
  | .hbm, ⟨2, _⟩ => ⟨S16, .f32⟩
  | .hbm, ⟨3, _⟩ => ⟨S16x512, .f32⟩
  | .hbm, ⟨4, _⟩ => ⟨S512, .f32⟩
  | .hbm, ⟨5, _⟩ => ⟨S65536x512, .f32⟩
  | .hbm, ⟨6, _⟩ => ⟨S1x16, .f32⟩
  | .hbm, ⟨7, _⟩ => ⟨S1x512, .f32⟩
  | .hbm, ⟨8, _⟩ => ⟨S65536x512, .f32⟩
  | .hbm, ⟨9, _⟩ => ⟨S64x32x32x512, .f32⟩
  | .local _ .vmem, ⟨0, _⟩ => ⟨S2048x512, .f32⟩
  | .local _ .vmem, ⟨1, _⟩ => ⟨S2048x512, .f32⟩
  | .local _ .vmem, ⟨2, _⟩ => ⟨S512x16, .f32⟩
  | .local _ .vmem, ⟨3, _⟩ => ⟨S1x16, .f32⟩
  | .local _ .vmem, ⟨4, _⟩ => ⟨S16x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S64x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x32x32x512_S65536x512 : S64x32x32x512.ShapeCasts S65536x512
  shapeCasts_S16_S1x16 : S16.ShapeCasts S1x16
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  reduces_S2048x16_S2048 : S2048x16.Reduces [1] S2048
  shapeCasts_S2048_S2048x1 : S2048.ShapeCasts S2048x1
  broadcasts_S2048x1_S2048x16 : S2048x1.Broadcasts S2048x16
  natLt_1_32 : 1 < 32
  inb_S16x512_S16x512_0_0 : ∀ a, (![0, 0] : Fin 2 → Nat) a + S16x512.size a ≤ S16x512.size a
  h_S16x512 : 0 < S16x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S65536x512_S64x32x32x512 : S65536x512.ShapeCasts S64x32x32x512
  dot_S2048x512_S512x16_S2048x16_1_0_0_1_n_n_wf : DotDims.WF S2048x512 S512x16 S2048x16 [1] [0] [0] [1] [] []
  dot_S2048x16_S16x512_S2048x512_1_0_0_1_n_n_wf : DotDims.WF S2048x16 S16x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x512.size a
  hwx0_3 : ∀ i : grid0.Coords, EltTy.bits .f32 = 32 ∨ (Rect.block (s := S16x512) S16x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S65536x512.size a
  hwx0_5 : ∀ i : grid0.Coords, EltTy.bits .f32 = 32 ∨ (Rect.block (s := S65536x512) S2048x512.size (cc0_transform_5 i) (hinb0_5 i)).WholeWords (EltTy.packing .f32)

variable [Facts₀]

def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf
def dot_S2048x16_S16x512_S2048x512_1_0_0_1_n_n : DotDims S2048x16 S16x512 S2048x512 where
  lhsContracting := [1]
  rhsContracting := [0]
  lhsNonContracting := [0]
  rhsNonContracting := [1]
  lhsBatch := []
  rhsBatch := []
  wf := dot_S2048x16_S16x512_S2048x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x32x32x512 : Shape := ⟨4, ![64, 32, 32, 512]⟩
abbrev S512x16 : Shape := ⟨2, ![512, 16]⟩
abbrev S16 : Shape := ⟨1, ![16]⟩
abbrev S16x512 : Shape := ⟨2, ![16, 512]⟩
abbrev S512 : Shape := ⟨1, ![512]⟩
abbrev S64x1024x512 : Shape := ⟨3, ![64, 1024, 512]⟩
abbrev S64x1024x16 : Shape := ⟨3, ![64, 1024, 16]⟩
abbrev S1x1x16 : Shape := ⟨3, ![1, 1, 16]⟩
abbrev S_ : Shape := ⟨0, ![]⟩
abbrev S64x1024 : Shape := ⟨2, ![64, 1024]⟩
abbrev S64x1024x1 : Shape := ⟨3, ![64, 1024, 1]⟩
abbrev S64x32x32x16 : Shape := ⟨4, ![64, 32, 32, 16]⟩
abbrev S1x1x1x512 : Shape := ⟨4, ![1, 1, 1, 512]⟩

abbrev nBuf : Space → Nat
  | .hbm => 37
  | .vmem => 0
  | .smem => 0
  | _ => 0

abbrev bufTy : (tb : Table) → Fin (tcTables nBuf tb) → BufTy
  | .hbm, ⟨0, _⟩ => ⟨S64x32x32x512, .f32⟩
  | .hbm, ⟨1, _⟩ => ⟨S512x16, .f32⟩
  | .hbm, ⟨2, _⟩ => ⟨S16, .f32⟩
  | .hbm, ⟨3, _⟩ => ⟨S16x512, .f32⟩
  | .hbm, ⟨4, _⟩ => ⟨S512, .f32⟩
  | .hbm, ⟨5, _⟩ => ⟨S64x1024x512, .f32⟩
  | .hbm, ⟨6, _⟩ => ⟨S64x1024x16, .f32⟩
  | .hbm, ⟨7, _⟩ => ⟨S1x1x16, .f32⟩
  | .hbm, ⟨8, _⟩ => ⟨S64x1024x16, .f32⟩
  | .hbm, ⟨9, _⟩ => ⟨S64x1024x16, .f32⟩
  | .hbm, ⟨10, _⟩ => ⟨S64x1024x16, .f32⟩
  | .hbm, ⟨11, _⟩ => ⟨S_, .f32⟩
  | .hbm, ⟨12, _⟩ => ⟨S64x1024, .f32⟩
  | .hbm, ⟨13, _⟩ => ⟨S64x1024x1, .f32⟩
  | .hbm, ⟨14, _⟩ => ⟨S64x1024x1, .f32⟩
  | .hbm, ⟨15, _⟩ => ⟨S_, .f32⟩
  | .hbm, ⟨16, _⟩ => ⟨S64x1024x1, .f32⟩
  | .hbm, ⟨17, _⟩ => ⟨S64x1024x1, .f32⟩
  | .hbm, ⟨18, _⟩ => ⟨S64x1024x16, .f32⟩
  | .hbm, ⟨19, _⟩ => ⟨S64x1024x16, .f32⟩
  | .hbm, ⟨20, _⟩ => ⟨S_, .f32⟩
  | .hbm, ⟨21, _⟩ => ⟨S64x1024x16, .f32⟩
  | .hbm, ⟨22, _⟩ => ⟨S64x1024x16, .i1⟩
  | .hbm, ⟨23, _⟩ => ⟨S64x1024x16, .f32⟩
  | .hbm, ⟨24, _⟩ => ⟨S_, .f32⟩
  | .hbm, ⟨25, _⟩ => ⟨S64x1024x16, .f32⟩
  | .hbm, ⟨26, _⟩ => ⟨S64x1024x16, .f32⟩
  | .hbm, ⟨27, _⟩ => ⟨S_, .f32⟩
  | .hbm, ⟨28, _⟩ => ⟨S64x1024x16, .f32⟩
  | .hbm, ⟨29, _⟩ => ⟨S64x1024x16, .f32⟩
  | .hbm, ⟨30, _⟩ => ⟨S64x1024x16, .f32⟩
  | .hbm, ⟨31, _⟩ => ⟨S64x1024x16, .f32⟩
  | .hbm, ⟨32, _⟩ => ⟨S64x32x32x16, .f32⟩
  | .hbm, ⟨33, _⟩ => ⟨S64x32x32x512, .f32⟩
  | .hbm, ⟨34, _⟩ => ⟨S1x1x1x512, .f32⟩
  | .hbm, ⟨35, _⟩ => ⟨S64x32x32x512, .f32⟩
  | .hbm, ⟨36, _⟩ => ⟨S64x32x32x512, .f32⟩
  | _, _ => ⟨S64x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S64x32x32x512_S64x1024x512 : S64x32x32x512.ShapeCasts S64x1024x512
  bcast_S16_S1x1x16_2 : S16.BroadcastsInDim S1x1x16 (![2] : Fin 1 → Fin S1x1x16.rank)
  bcast_S1x1x16_S64x1024x16_0_1_2 : S1x1x16.BroadcastsInDim S64x1024x16 (![0, 1, 2] : Fin 3 → Fin S64x1024x16.rank)
  reducesTo_S64x1024x16_S64x1024_d2 : S64x1024x16.ReducesTo [2] S64x1024
  h_S_ : 0 < S_.numel
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S64x1024x1_S64x1024x16_0_1_2 : S64x1024x1.BroadcastsInDim S64x1024x16 (![0, 1, 2] : Fin 3 → Fin S64x1024x16.rank)
  bcast_S_S64x1024x16 : S_.BroadcastsInDim S64x1024x16 (![] : Fin 0 → Fin S64x1024x16.rank)
  shapeCasts_S64x1024x16_S64x32x32x16 : S64x1024x16.ShapeCasts S64x32x32x16
  bcast_S512_S1x1x1x512_3 : S512.BroadcastsInDim S1x1x1x512 (![3] : Fin 1 → Fin S1x1x1x512.rank)
  bcast_S1x1x1x512_S64x32x32x512_0_1_2_3 : S1x1x1x512.BroadcastsInDim S64x32x32x512 (![0, 1, 2, 3] : Fin 4 → Fin S64x32x32x512.rank)
  dot_S64x1024x512_S512x16_S64x1024x16_2_0_01_1_n_n_wf : DotDims.WF S64x1024x512 S512x16 S64x1024x16 [2] [0] [0, 1] [1] [] []
  dot_S64x32x32x16_S16x512_S64x32x32x512_3_0_012_1_n_n_wf : DotDims.WF S64x32x32x16 S16x512 S64x32x32x512 [3] [0] [0, 1, 2] [1] [] []

variable [Facts₀]

def dot_S64x1024x512_S512x16_S64x1024x16_2_0_01_1_n_n : DotDims S64x1024x512 S512x16 S64x1024x16 where
  lhsContracting := [2]
  rhsContracting := [0]
  lhsNonContracting := [0, 1]
  rhsNonContracting := [1]
  lhsBatch := []
  rhsBatch := []
  wf := dot_S64x1024x512_S512x16_S64x1024x16_2_0_01_1_n_n_wf
def dot_S64x32x32x16_S16x512_S64x32x32x512_3_0_012_1_n_n : DotDims S64x32x32x16 S16x512 S64x32x32x512 where
  lhsContracting := [3]
  rhsContracting := [0]
  lhsNonContracting := [0, 1, 2]
  rhsNonContracting := [1]
  lhsBatch := []
  rhsBatch := []
  wf := dot_S64x32x32x16_S16x512_S64x32x32x512_3_0_012_1_n_n_wf

class Facts : Prop extends Facts₀ where

variable [Facts]
-- ==== Proof.Spec.lean ====
/-
  Binary spherical quantization of one row, and of the whole array, as plain functions on the extended reals.

  A row `x ∈ ℝ^512` is projected to `z0 = x · Wp + bp ∈ ℝ^16`, scaled to the unit sphere with the norm clamped from
  below, `z = z0 / max(‖z0‖₂, ε)`, quantized to its signs `q_j = 2 · [z_j ≥ 0] − 1 ∈ {−1, +1}`, and mapped back,
  `out = q · Wr + br ∈ ℝ^512`. The array `[64, 32, 32, 512]` is treated row by row along its last axis.

  The straight-through form `z + (q − z)` of the quantizer is `q` itself wherever `z` is a real number
  (`ste_real`); `z` is a real number as soon as the row, the projection and its bias are (`unit_real`): the clamped
  norm is at least `ε > 0`, so the quotient is a product of a real with a real (the inverse of an infinity being zero).
-/
import Idealize.ShloMosaic.PureOps.Ideal
import Idealize.ShloMosaic.PureOps.Ideal.Laws
import Idealize.ShloMosaic.Lib.ValueIdx

noncomputable section

open scoped BigOperators

namespace Cert.Bsq

open Idealize.ShloMosaic Idealize.ShloMosaic.ValueIdx

/-- The lower clamp of the norm, `ε` (the single-precision number nearest `1e-12`). -/
abbrev eps : EReal := Ideal.ofBits .f32 0x2B8CBCCC#32
/-- The literals `0`, `2` and `1` of the sign quantizer, kept as their patterns. -/
abbrev zero : EReal := Ideal.ofBits .f32 0x00000000#32
abbrev two : EReal := Ideal.ofBits .f32 0x40000000#32
abbrev one : EReal := Ideal.ofBits .f32 0x3F800000#32

/-- The projection of a row: `z0_j = ∑ₖ x_k · Wp[k, j] + bp_j`. -/
def proj (xr : Fin 512 → EReal) (wp : (⟨2, ![512, 16]⟩ : Shape).Idx → EReal) (bp : Fin 16 → EReal) (j : Fin 16) : EReal :=
  (∑ k : Fin 512, xr k * wp (ix2 k j)) + bp j

/-- The Euclidean norm of the projected row, clamped from below by `ε`. -/
def clampNorm (z0 : Fin 16 → EReal) : EReal := max (Ideal.sqrt (∑ j : Fin 16, z0 j * z0 j)) eps

/-- The projected row scaled by its clamped norm. -/
def unit (z0 : Fin 16 → EReal) (j : Fin 16) : EReal := Ideal.div (z0 j) (clampNorm z0)

/-- The sign quantizer `2 · [z ≥ 0] − 1`: the comparison's bit read as a number. -/
def code (z : EReal) : EReal := two * (((Ideal.cmp .oge z zero).toNat : ℝ) : EReal) - one

/-- The reconstruction of a code: `out_c = ∑ⱼ q_j · Wr[j, c] + br_c`. -/
def recon (q : Fin 16 → EReal) (wr : (⟨2, ![16, 512]⟩ : Shape).Idx → EReal) (br : Fin 512 → EReal) (c : Fin 512) : EReal :=
  (∑ j : Fin 16, q j * wr (ix2 j c)) + br c

/-- One row through the whole map. -/
def rowOut (xr : Fin 512 → EReal) (wp : (⟨2, ![512, 16]⟩ : Shape).Idx → EReal) (bp : Fin 16 → EReal)
    (wr : (⟨2, ![16, 512]⟩ : Shape).Idx → EReal) (br : Fin 512 → EReal) (c : Fin 512) : EReal :=
  recon (fun j => code (unit (proj xr wp bp) j)) wr br c

/-- The whole array: entry `(b, h, w, c)` is entry `c` of the image of the row `x[b, h, w, ·]`. -/
def out4 (x : (⟨4, ![64, 32, 32, 512]⟩ : Shape).Idx → EReal) (wp : (⟨2, ![512, 16]⟩ : Shape).Idx → EReal)
    (bp : (⟨1, ![16]⟩ : Shape).Idx → EReal) (wr : (⟨2, ![16, 512]⟩ : Shape).Idx → EReal)
    (br : (⟨1, ![512]⟩ : Shape).Idx → EReal) : (⟨4, ![64, 32, 32, 512]⟩ : Shape).Idx → EReal :=
  fun i => rowOut (fun k => x (ix4 (i 0) (i 1) (i 2) k)) wp (fun j => bp (ix1 j)) wr (fun c => br (ix1 c)) (i 3)

/-- The same map on the array flattened to `[65536, 512]`: entry `(r, c)` from row `r`. -/
def out2 (x : (⟨2, ![65536, 512]⟩ : Shape).Idx → EReal) (wp : (⟨2, ![512, 16]⟩ : Shape).Idx → EReal)
    (bp : (⟨2, ![1, 16]⟩ : Shape).Idx → EReal) (wr : (⟨2, ![16, 512]⟩ : Shape).Idx → EReal)
    (br : (⟨2, ![1, 512]⟩ : Shape).Idx → EReal) : (⟨2, ![65536, 512]⟩ : Shape).Idx → EReal :=
  fun i => rowOut (fun k => x (ix2 (i 0) k)) wp (fun j => bp (ix2 0 j)) wr (fun c => br (ix2 0 c)) (i 1)

/-! ## The clamp keeps the divisor off zero -/

/-- `ε` is a positive number. -/
theorem eps_pos : (0 : EReal) < eps := by
  simp [Ideal.ofBits, Ideal.ieee, -EReal.coe_mul]

/-- The clamped norm is at least `ε`, so it is not zero. -/
theorem clampNorm_ne_zero (z0 : Fin 16 → EReal) : clampNorm z0 ≠ 0 :=
  (lt_of_lt_of_le eps_pos (le_max_right _ _)).ne'

/-! ## Where the inputs are real numbers, so is the scaled projection -/

/-- A finite sum of real numbers is a real number. -/
theorem sum_real {n : Nat} (f : Fin n → EReal) (h : ∀ k, ∃ r : ℝ, f k = (r : EReal)) : ∃ r : ℝ, ∑ k, f k = (r : EReal) := by
  choose g hg using h
  refine ⟨∑ k, g k, ?_⟩
  simp only [hg]
  induction (Finset.univ : Finset (Fin n)) using Finset.induction_on with
  | empty => simp
  | insert a s ha ih => rw [Finset.sum_insert ha, Finset.sum_insert ha, ih, EReal.coe_add]

/-- A real number divided by anything but zero is a real number: the inverse of an extended real is a real number
    (that of an infinity is zero). -/
theorem div_real (a : ℝ) {d : EReal} (hd : d ≠ 0) : ∃ r : ℝ, Ideal.div (a : EReal) d = (r : EReal) := by
  rw [Ideal.div, if_neg hd]
  induction d using EReal.rec with
  | bot => exact ⟨0, by simp⟩
  | coe d => exact ⟨a * d⁻¹, by norm_cast⟩
  | top => exact ⟨0, by simp⟩

/-- The projection of a real row by a real matrix and bias is real. -/
theorem proj_real {xr : Fin 512 → EReal} {wp : (⟨2, ![512, 16]⟩ : Shape).Idx → EReal} {bp : Fin 16 → EReal}
    (hx : ∀ k, ∃ r : ℝ, xr k = (r : EReal)) (hw : ∀ i, ∃ r : ℝ, wp i = (r : EReal)) (hb : ∀ j, ∃ r : ℝ, bp j = (r : EReal))
    (j : Fin 16) : ∃ r : ℝ, proj xr wp bp j = (r : EReal) := by
  obtain ⟨s, hs⟩ := sum_real (fun k => xr k * wp (ix2 k j)) (fun k => by
    obtain ⟨a, ha⟩ := hx k
    obtain ⟨b, hb'⟩ := hw (ix2 k j)
    exact ⟨a * b, by rw [ha, hb', EReal.coe_mul]⟩)
  obtain ⟨b, hb'⟩ := hb j
  exact ⟨s + b, by unfold proj; rw [hs, hb', EReal.coe_add]⟩

/-- So is the projection scaled by its clamped norm. -/
theorem unit_real {z0 : Fin 16 → EReal} (hz : ∀ j, ∃ r : ℝ, z0 j = (r : EReal)) (j : Fin 16) :
    ∃ r : ℝ, unit z0 j = (r : EReal) := by
  obtain ⟨a, ha⟩ := hz j
  unfold unit
  rw [ha]
  exact div_real a (clampNorm_ne_zero z0)

/-! ## The straight-through form of the quantizer -/

/-- Adding to a real number `z` the difference `s − z` gives `s`, whatever extended real `s` is. -/
theorem ste_real (z : ℝ) (s : EReal) : (z : EReal) + (s - z) = s := by
  induction s using EReal.rec with
  | bot => simp
  | coe s => norm_cast; ring
  | top => simp

/-- A one-bit word widened with zeros and read as a signed integer is the bit itself. -/
theorem zext_toInt (b : BitVec 1) : (((b.setWidth 32).toInt : ℝ) : EReal) = ((b.toNat : ℝ) : EReal) := by
  have h : ∀ b : BitVec 1, (b.setWidth 32).toInt = (b.toNat : Int) := by decide
  rw [h b]; norm_cast

end Cert.Bsq

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KernelRow.lean ====
/-
  The kernel body's stored value, read at an entry of its block.

  The body loads a block of 2048 rows and the four small arrays whole, and stores ONE value: for each row of the block,
  its projection (a matrix product into a zero accumulator plus the bias row broadcast over the rows), the projected row
  divided by its clamped norm (the squares summed along the row, the square root, the maximum with the clamp, broadcast
  back over the row's 16 entries), the sign code of each entry (the comparison's bit, widened and converted), and the
  reconstruction (a second matrix product plus a bias row). Changes of float format are the identity on the extended
  reals. Entry `(p, c)` of the stored value is therefore entry `c` of the specification's row map at row `p` of the
  loaded block: `pay_apply`, assembled from one lemma per stage.
-/
import proofs.«164317_j970662609103_1_alg».proof.Proof.Gen.KernelIdeal.Skeleton
import proofs.«164317_j970662609103_1_alg».proof.Proof.Spec
import proofs.«164317_j970662609103_1_alg».proof.Proof.LibRowDims
import Idealize.ShloMosaic.Lib.Pipeline.Value
import Idealize.ShloMosaic.Lib.ValueLayout
import Idealize.ShloMosaic.PureOps.Ideal.Laws

noncomputable section

open scoped BigOperators

namespace Cert.Bsq.Body

open Idealize.ShloMosaic Idealize.ShloMosaic.ValueIdx Idealize.ShloMosaic.RowDims Cert.KernelIdeal Cert.KernelIdeal.Gen

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both contractions are plain matrix products: rows by the contracted axis times the contracted axis by columns. -/
theorem dot1_eq : dot_S2048x512_S512x16_S2048x16_1_0_0_1_n_n = DotDims.plain 2048 512 16 := rfl
theorem dot2_eq : dot_S2048x16_S16x512_S2048x512_1_0_0_1_n_n = DotDims.plain 2048 16 512 := rfl

/-- The sum along a row of a `[2048, 16]` array, at row `p`. -/
theorem rowsum_apply (v : FVec Ideal S2048x16 .f32) (hacc : (0x00000000#32 : BitVec 32) = 0x00000000#32) (p : Fin 2048) :
    multiReduction .add [1] S2048 v 0x00000000#32 reduces_S2048x16_S2048 (.inl rfl) hacc (ix1 p) = ∑ j : Fin 16, v (ix2 p j) := by
  refine (Ideal.multiReduction_add_single v 0x00000000#32 reduces_S2048x16_S2048 (.inl rfl) hacc (ix1 p)).trans ?_
  refine Finset.sum_congr rfl fun j _ => congrArg v ?_
  funext c
  refine Fin.ext ?_
  match c with
  | ⟨0, _⟩ => rw [Shape.Reduces.lift_val]; simp [Shape.Reduces.liftVal]
  | ⟨1, _⟩ => rw [Shape.Reduces.lift_val]; simp [Shape.Reduces.liftVal]

/-- The projection at row p, column j. -/
theorem proj_apply (x : FVec Ideal S2048x512 .bf16) (w : FVec Ideal S512x16 .bf16) (b : FVec Ideal S1x16 .f32) (p : Fin 2048) (j : Fin 16) :
    (addf (matmul dot_S2048x512_S512x16_S2048x16_1_0_0_1_n_n none x w (constant S2048x16 .f32 0x00000000#32))
        (broadcastTo S2048x16 b broadcasts_S1x16_S2048x16) : FVec Ideal S2048x16 .f32) (ix2 p j)
      = proj (fun k => x (ix2 p k)) w (fun j => b (ix2 0 j)) j := by
  show (matmul dot_S2048x512_S512x16_S2048x16_1_0_0_1_n_n none x w (constant S2048x16 .f32 0x00000000#32) : FVec Ideal S2048x16 .f32) (ix2 p j)
      + (broadcastTo S2048x16 b broadcasts_S1x16_S2048x16 : FVec Ideal S2048x16 .f32) (ix2 p j) = _
  unfold proj
  congr 1
  · exact matmul_plain_zero_apply (M := 2048) (K := 512) (N := 16) none x w p j
  · exact broadcastTo_1b_ab_apply b broadcasts_S1x16_S2048x16 p j

/-- The quotient by the clamped norm at row p, column j: the norm is taken along the row and broadcast back. -/
theorem unit_apply (z : FVec Ideal S2048x16 .f32) (p : Fin 2048) (j : Fin 16) :
    (divf z (broadcastTo S2048x16 (maximumf (sqrt (shapeCast S2048x1 (multiReduction .add [1] S2048 (mulf z z) 0x00000000#32 reduces_S2048x16_S2048 (.inl rfl) rfl) shapeCasts_S2048_S2048x1))
        (broadcast S2048x1 (Scalar.ofBits .f32 0x2B8CBCCC#32))) broadcasts_S2048x1_S2048x16) : FVec Ideal S2048x16 .f32) (ix2 p j)
      = unit (fun j => z (ix2 p j)) j := by
  show Ideal.div (z (ix2 p j)) ((broadcastTo S2048x16 (maximumf (sqrt (shapeCast S2048x1 (multiReduction .add [1] S2048 (mulf z z) 0x00000000#32 reduces_S2048x16_S2048 (.inl rfl) rfl) shapeCasts_S2048_S2048x1))
        (broadcast S2048x1 (Scalar.ofBits .f32 0x2B8CBCCC#32))) broadcasts_S2048x1_S2048x16 : FVec Ideal S2048x16 .f32) (ix2 p j)) = _
  unfold unit clampNorm
  congr 1
  refine (broadcastTo_a1_ab_apply _ broadcasts_S2048x1_S2048x16 p j).trans ?_
  show max (Ideal.sqrt ((shapeCast S2048x1 (multiReduction .add [1] S2048 (mulf z z) 0x00000000#32 reduces_S2048x16_S2048 (.inl rfl) rfl) shapeCasts_S2048_S2048x1 : FVec Ideal S2048x1 .f32) (ix2 p 0))) eps = _
  congr 2
  refine (shapeCast_a_a1_apply _ shapeCasts_S2048_S2048x1 p 0).trans ?_
  exact rowsum_apply (mulf z z) rfl p

/-- The sign code at an entry: the comparison's bit, widened with zeros and read signed, is the bit. -/
theorem code_apply (z : FVec Ideal S2048x16 .f32) (p : Fin 2048) (j : Fin 16) :
    (truncf .bf16 (subf (mulf (broadcast S2048x16 (Scalar.ofBits .f32 0x40000000#32))
        (sitofp .f32 (extui 32 (cmpf .oge z (broadcast S2048x16 (Scalar.ofBits .f32 0x00000000#32))) natLt_1_32)))
        (broadcast S2048x16 (Scalar.ofBits .f32 0x3F800000#32))) bitsLt_bf16_f32 : FVec Ideal S2048x16 .bf16) (ix2 p j)
      = code (z (ix2 p j)) := by
  show two * ((((Ideal.cmp .oge (z (ix2 p j)) zero).setWidth 32).toInt : ℝ) : EReal) - one = _
  unfold code
  rw [zext_toInt]

/-- The reconstruction at row p, column c. -/
theorem recon_apply (q : FVec Ideal S2048x16 .bf16) (w : FVec Ideal S16x512 .bf16) (b : FVec Ideal S1x512 .f32) (p : Fin 2048) (c : Fin 512) :
    (addf (matmul dot_S2048x16_S16x512_S2048x512_1_0_0_1_n_n none q w (constant S2048x512 .f32 0x00000000#32))
        (broadcastTo S2048x512 b broadcasts_S1x512_S2048x512) : FVec Ideal S2048x512 .f32) (ix2 p c)
      = recon (fun j => q (ix2 p j)) w (fun c => b (ix2 0 c)) c := by
  show (matmul dot_S2048x16_S16x512_S2048x512_1_0_0_1_n_n none q w (constant S2048x512 .f32 0x00000000#32) : FVec Ideal S2048x512 .f32) (ix2 p c)
      + (broadcastTo S2048x512 b broadcasts_S1x512_S2048x512 : FVec Ideal S2048x512 .f32) (ix2 p c) = _
  unfold recon
  congr 1
  · exact matmul_plain_zero_apply (M := 2048) (K := 16) (N := 512) none q w p c
  · exact broadcastTo_1b_ab_apply b broadcasts_S1x512_S2048x512 p c

/-- The body's one stored value at row p, column c of its block: the row map of row p of the loaded block. -/
theorem pay_apply (v0 : Vec Ideal S2048x512 .f32) (v3 : Vec Ideal S512x16 .f32) (v6 : Vec Ideal S1x16 .f32)
    (v27 : Vec Ideal S16x512 .f32) (v30 : Vec Ideal S1x512 .f32) (p : Fin 2048) (c : Fin 512) :
    k0_pay1 (F := Ideal) v0 v3 v6 v27 v30 (ix2 p c)
      = rowOut (fun k => v0 (ix2 p k)) v3 (fun j => v6 (ix2 0 j)) v27 (fun c => v30 (ix2 0 c)) c := by
  unfold k0_pay1
  dsimp only
  refine (recon_apply _ _ _ p c).trans ?_
  unfold rowOut
  simp only [shapeCast_self]
  refine congrArg (fun q => recon q v27 (fun c => v30 (ix2 0 c)) c) (funext fun j => ?_)
  refine (code_apply _ p j).trans (congrArg code ?_)
  refine (unit_apply _ p j).trans ?_
  refine congrArg (fun z => unit z j) (funext fun j' => ?_)
  exact proj_apply _ _ _ p j'

end Cert.Bsq.Body
end
-- ==== Proof.KernelValue.lean ====
/-
  The idealized kernel's result array as the specification's value of the argument arrays.

  The program flattens `x` to `[65536, 512]`, and the bias vectors to one-row matrices; the kernel region walks 32
  blocks of 2048 rows; its result `[65536, 512]` is reshaped back to `[64, 32, 32, 512]`.
  * At grid point `t` the row window holds rows `2048 t … 2048 t + 2047` of the flattened array and the four small
    windows hold their whole arrays, so what the point writes back is block `t` of ONE whole-array function, the
    specification's `out2` of the arrays as the region finds them (`flushed_eq`, from the body's stored value read
    at an entry).
  * The 32 blocks tile the result: row `r` lies in block `r / 2048` (`cover`), so the result array ends at `out2`
    (`final`).
  * The two reshapes pair position `(b, h, w)` with row `(b · 32 + h) · 32 + w`, and a vector with its one-row matrix,
    which turns `out2` of the flattened arrays, reshaped, into `out4` of the arguments (`result_eq`).
-/
import proofs.«164317_j970662609103_1_alg».proof.Proof.Gen.KernelIdeal.Frame
import proofs.«164317_j970662609103_1_alg».proof.Proof.KernelRow
import Idealize.ShloMosaic.Lib.Pipeline.Value
import Idealize.ShloMosaic.Lib.StableHlo.Run
import Idealize.ShloMosaic.Lib.Tactic

set_option maxRecDepth 16384

noncomputable section

open scoped BigOperators

namespace Cert.Bsq.Run

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- One entry of a block's stored value from the arrays the blocks are cut from. -/
theorem block_entry (X : S65536x512.Idx → EReal) (W1 : S512x16.Idx → EReal) (B1 : S1x16.Idx → EReal) (W3 : S16x512.Idx → EReal) (B3 : S1x512.Idx → EReal)
    (x0 : Vec Ideal S2048x512 .f32) (x1 : Vec Ideal S512x16 .f32) (x2 : Vec Ideal S1x16 .f32) (x3 : Vec Ideal S16x512 .f32) (x4 : Vec Ideal S1x512 .f32)
    (j : S2048x512.Idx) (i : S65536x512.Idx) (p : Fin 2048) (q : Fin 512) (r : Fin 65536)
    (hj : j = ix2 p q) (hi : i = ix2 r q) (h0 : ∀ k : Fin 512, x0 (ix2 p k) = X (ix2 r k))
    (h1 : x1 = W1) (h2 : x2 = B1) (h3 : x3 = W3) (h4 : x4 = B3) :
    k0_pay1 (F := Ideal) x0 x1 x2 x3 x4 j = out2 X W1 B1 W3 B3 i := by
  subst hj hi h1 h2 h3 h4
  rw [Cert.Bsq.Body.pay_apply]
  unfold out2
  exact congrArg (fun xr => rowOut xr x1 (fun j => x2 (ix2 0 j)) x3 (fun c => x4 (ix2 0 c)) q) (funext h0)

/-- The windows' block indices at point t: the row window and the result window are at block t, the others at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row window's block at point t holds rows 2048 t … 2048 t + 2047 of its array. -/
theorem iblk0_apply (c : Dev nD) (t : Fin cfg0.N) (p : Fin 2048) (k : Fin 512) (r : Fin 65536) (hr : r.val = 2048 * t.val + p.val) :
    (iblk m c 0 t : Vec Ideal S2048x512 .f32) (ix2 p k) = (V m c main_v0 : S65536x512.Idx → EReal) (ix2 r k) := by
  obtain ⟨e00, e01, -⟩ := idx_facts t
  unfold iblk
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 2048 + 1 * p.val = r.val; rw [e00, hr]; omega
  | ⟨1, _⟩ => show win0_0.index t (1 : Fin 2) * 512 + 1 * k.val = k.val; rw [e01]; omega

/-- Each of the four resident windows' block, at every point, is its whole array. -/
theorem iblk1_eq (c : Dev nD) (t : Fin cfg0.N) : (iblk m c 1 t : Vec Ideal S512x16 .f32) = V m c main_arg1 := by
  obtain ⟨-, -, e10, e11, -⟩ := idx_facts t
  unfold iblk
  funext y
  show V m c main_arg1 (((cfg0.win 1).blk t).view.emb y) = V m c main_arg1 y
  refine congrArg (V m c main_arg1) (funext fun a => Fin.ext ?_)
  match a with
  | ⟨0, _⟩ => show win0_1.index t (0 : Fin 2) * 512 + 1 * (y 0).val = (y 0).val; rw [e10]; omega
  | ⟨1, _⟩ => show win0_1.index t (1 : Fin 2) * 16 + 1 * (y 1).val = (y 1).val; rw [e11]; omega
theorem iblk2_eq (c : Dev nD) (t : Fin cfg0.N) : (iblk m c 2 t : Vec Ideal S1x16 .f32) = V m c main_v1 := by
  obtain ⟨-, -, -, -, e20, e21, -⟩ := idx_facts t
  unfold iblk
  funext y
  show V m c main_v1 (((cfg0.win 2).blk t).view.emb y) = V m c main_v1 y
  refine congrArg (V m c main_v1) (funext fun a => Fin.ext ?_)
  match a with
  | ⟨0, _⟩ => show win0_2.index t (0 : Fin 2) * 1 + 1 * (y 0).val = (y 0).val; rw [e20]; omega
  | ⟨1, _⟩ => show win0_2.index t (1 : Fin 2) * 16 + 1 * (y 1).val = (y 1).val; rw [e21]; omega
theorem iblk3_eq (c : Dev nD) (t : Fin cfg0.N) : (iblk m c 3 t : Vec Ideal S16x512 .f32) = V m c main_arg3 := by
  obtain ⟨-, -, -, -, -, -, e30, e31, -⟩ := idx_facts t
  unfold iblk
  funext y
  show V m c main_arg3 (((cfg0.win 3).blk t).view.emb y) = V m c main_arg3 y
  refine congrArg (V m c main_arg3) (funext fun a => Fin.ext ?_)
  match a with
  | ⟨0, _⟩ => show win0_3.index t (0 : Fin 2) * 16 + 1 * (y 0).val = (y 0).val; rw [e30]; omega
  | ⟨1, _⟩ => show win0_3.index t (1 : Fin 2) * 512 + 1 * (y 1).val = (y 1).val; rw [e31]; omega
theorem iblk4_eq (c : Dev nD) (t : Fin cfg0.N) : (iblk m c 4 t : Vec Ideal S1x512 .f32) = V m c main_v2 := by
  obtain ⟨-, -, -, -, -, -, -, -, e40, e41, -⟩ := idx_facts t
  unfold iblk
  funext y
  show V m c main_v2 (((cfg0.win 4).blk t).view.emb y) = V m c main_v2 y
  refine congrArg (V m c main_v2) (funext fun a => Fin.ext ?_)
  match a with
  | ⟨0, _⟩ => show win0_4.index t (0 : Fin 2) * 1 + 1 * (y 0).val = (y 0).val; rw [e40]; omega
  | ⟨1, _⟩ => show win0_4.index t (1 : Fin 2) * 512 + 1 * (y 1).val = (y 1).val; rw [e41]; omega

/-- The specification's value of the arrays as the region finds them. -/
abbrev G (c : Dev nD) : S65536x512.Idx → EReal :=
  out2 (V m c main_v0) (V m c main_arg1) (V m c main_v1) (V m c main_arg3) (V m c main_v2)

/-- What point t writes back is block t of that value. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz]
  simp only [View.ld_unit_zero (S := S2048x512) hz, View.ld_unit_zero (S := S512x16) hz, View.ld_unit_zero (S := S1x16) hz,
    View.ld_unit_zero (S := S16x512) hz, View.ld_unit_zero (S := S1x512) hz]
  obtain ⟨e00, e01, e10, e11, e20, e21, e30, e31, e40, e41, e50, e51⟩ := idx_facts t
  have hN : t.val < 32 := Nat.lt_of_lt_of_eq t.isLt (show cfg0.N = 32 from N_0)
  funext j
  have hj0 : (j 0).val < 2048 := (j 0).isLt
  have hj1 : (j 1).val < 512 := (j 1).isLt
  show k0_pay1 (F := Ideal) (iblk m c 0 t) (iblk m c 1 t) (iblk m c 2 t) (iblk m c 3 t) (iblk m c 4 t) j
    = G m c (((cfg0.win 5).blk t).view.emb j)
  refine block_entry (V m c main_v0) (V m c main_arg1) (V m c main_v1) (V m c main_arg3) (V m c main_v2) _ _ _ _ _ j _
    ⟨(j 0).val, hj0⟩ ⟨(j 1).val, hj1⟩ ⟨2048 * t.val + (j 0).val, by omega⟩ ?_ ?_ ?_ (iblk1_eq m c t) (iblk2_eq m c t) (iblk3_eq m c t) (iblk4_eq m c t)
  · funext a; match a with | ⟨0, _⟩ => rfl | ⟨1, _⟩ => rfl
  · funext a; refine Fin.ext ?_
    match a with
    | ⟨0, _⟩ => show win0_5.index t (0 : Fin 2) * 2048 + 1 * (j 0).val = 2048 * t.val + (j 0).val; rw [e50]; omega
    | ⟨1, _⟩ => show win0_5.index t (1 : Fin 2) * 512 + 1 * (j 1).val = (j 1).val; rw [e51]; omega
  · intro k; exact iblk0_apply m c t _ k _ rfl

/-- An index is in point t's block iff each coordinate is in the block's range on its axis. -/
theorem mem_blk (t : Fin cfg0.N) (i : S65536x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v3).slice (win0_5.rect t)).set ↔ _
  rw [View.set_slice_whole, Rect.mem_set_unit]
  exact Iff.rfl

/-- Every index of the result lies in some point's block: row r in block r / 2048. -/
theorem cover (i : S65536x512.Idx) : ∃ t : Fin cfg0.N, (cfg0.win 5).flush t = true ∧ i ∈ ((cfg0.win 5).blk t).view.set := by
  have hi0 : (i 0).val < 65536 := (i 0).isLt
  have hi1 : (i 1).val < 512 := (i 1).isLt
  have ht : (i 0).val / 2048 < cfg0.N := by rw [show cfg0.N = 32 from N_0]; omega
  obtain ⟨-, -, -, -, -, -, -, -, -, -, e50, e51⟩ := idx_facts ⟨(i 0).val / 2048, ht⟩
  refine ⟨⟨(i 0).val / 2048, ht⟩, flush0_5 _, ?_⟩
  rw [mem_blk]
  intro a
  match a with
  | ⟨0, _⟩ =>
    show win0_5.index ⟨(i 0).val / 2048, ht⟩ (0 : Fin 2) * 2048 ≤ (i 0).val ∧ (i 0).val < win0_5.index ⟨(i 0).val / 2048, ht⟩ (0 : Fin 2) * 2048 + 2048
    rw [e50]; show (i 0).val / 2048 * 2048 ≤ (i 0).val ∧ (i 0).val < (i 0).val / 2048 * 2048 + 2048; omega
  | ⟨1, _⟩ =>
    show win0_5.index ⟨(i 0).val / 2048, ht⟩ (1 : Fin 2) * 512 ≤ (i 1).val ∧ (i 1).val < win0_5.index ⟨(i 0).val / 2048, ht⟩ (1 : Fin 2) * 512 + 512
    rw [e51]; omega

/-- So the result array of the region ends at that value. -/
theorem final (c : Dev nD) : (dats m 0 c).arrAt 5 cfg0.N = G m c :=
  (dats m 0 c).arrAt_eq_of_cover 5 (G m c) (fun t _ => flushed_eq m c t) cover

/-- The three arrays the host lines before the region write: reshapes of arguments. -/
theorem V_v0 (c : Dev nD) : (V m c main_v0 : S65536x512.Idx → EReal)
    = shapeCast S65536x512 (m ((c : Thread nD τ).loc main_arg0)) shapeCasts_S64x32x32x512_S65536x512 := by
  show StableHlo.after hostOps0 (fun b => m (c, b)) (Proc.devRef .tc main_v0) = _
  after_results; rfl
theorem V_v1 (c : Dev nD) : (V m c main_v1 : S1x16.Idx → EReal)
    = shapeCast S1x16 (m ((c : Thread nD τ).loc main_arg2)) shapeCasts_S16_S1x16 := by
  show StableHlo.after hostOps0 (fun b => m (c, b)) (Proc.devRef .tc main_v1) = _
  after_results; rfl
theorem V_v2 (c : Dev nD) : (V m c main_v2 : S1x512.Idx → EReal)
    = shapeCast S1x512 (m ((c : Thread nD τ).loc main_arg4)) shapeCasts_S512_S1x512 := by
  show StableHlo.after hostOps0 (fun b => m (c, b)) (Proc.devRef .tc main_v2) = _
  after_results; rfl

/-- The host line after the region reshapes the region's result. -/
theorem tail_v4 (c : Dev nD) : (Pipeline.afterTail₀ cfgs (dats m) 0 (V0 m) [hostOps1] c main_v4 : S64x32x32x512.Idx → EReal)
    = shapeCast S64x32x32x512 ((dats m 0 c).arrAt 5 cfg0.N) shapeCasts_S65536x512_S64x32x32x512 := by
  unfold Pipeline.afterTail₀
  show StableHlo.after hostOps1 _ (Proc.devRef .tc main_v4) = _
  after_results
  exact congrArg (fun A : S65536x512.Idx → EReal => shapeCast S64x32x32x512 A shapeCasts_S65536x512_S64x32x32x512)
    (Pipeline.withArrays_arr spec0 launch0.win.arr_inj c (V0 m c) (fun w => (dats m 0 c).arrAt w (cfgs 0).N) 5)

/-- Position (b, h, w) of the array is row (b·32 + h)·32 + w of the flattened one. -/
abbrev rowOf (b : Fin 64) (h w : Fin 32) : Fin 65536 := ⟨(b.val * 32 + h.val) * 32 + w.val, by omega⟩

/-- Both reshapes, read at coordinates. -/
theorem flatten_apply (X : S64x32x32x512.Idx → EReal) (b : Fin 64) (h w : Fin 32) (k : Fin 512) :
    shapeCast S65536x512 X shapeCasts_S64x32x32x512_S65536x512 (ix2 (rowOf b h w) k) = X (ix4 b h w k) :=
  shapeCast_apply X shapeCasts_S64x32x32x512_S65536x512 _ _ (by
    rw [Shape.rowMajor_val_four, Shape.rowMajor_val_two]
    show ((b.val * 32 + h.val) * 32 + w.val) * 512 + k.val = ((b.val * 32 + h.val) * 32 + w.val) * 512 + k.val
    rfl)

theorem unflatten_apply (Y : S65536x512.Idx → EReal) (b : Fin 64) (h w : Fin 32) (k : Fin 512) :
    shapeCast S64x32x32x512 Y shapeCasts_S65536x512_S64x32x32x512 (ix4 b h w k) = Y (ix2 (rowOf b h w) k) :=
  shapeCast_apply Y shapeCasts_S65536x512_S64x32x32x512 _ _ (by
    rw [Shape.rowMajor_val_four, Shape.rowMajor_val_two]
    show ((b.val * 32 + h.val) * 32 + w.val) * 512 + k.val = ((b.val * 32 + h.val) * 32 + w.val) * 512 + k.val
    rfl)

/-- The program's result is the specification's value of the arguments. -/
theorem result_eq (c : Dev nD) :
    (Pipeline.afterTail₀ cfgs (dats m) 0 (V0 m) [hostOps1] c main_v4 : S64x32x32x512.Idx → EReal)
      = out4 (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_v4, final]
  funext i
  obtain ⟨b, h, w, k, rfl⟩ : ∃ (b : Fin 64) (h w : Fin 32) (k : Fin 512), i = ix4 b h w k := ⟨i 0, i 1, i 2, i 3, eq_ix4 i⟩
  rw [unflatten_apply]
  unfold G out2 out4
  rw [V_v0, V_v1, V_v2, V_main_arg1, V_main_arg3]
  show rowOut (fun k' => shapeCast S65536x512 (m ((c : Thread nD τ).loc main_arg0)) shapeCasts_S64x32x32x512_S65536x512 (ix2 (rowOf b h w) k'))
      (m ((c : Thread nD τ).loc main_arg1)) (fun j => shapeCast S1x16 (m ((c : Thread nD τ).loc main_arg2)) shapeCasts_S16_S1x16 (ix2 (0 : Fin 1) j))
      (m ((c : Thread nD τ).loc main_arg3)) (fun c' => shapeCast S1x512 (m ((c : Thread nD τ).loc main_arg4)) shapeCasts_S512_S1x512 (ix2 (0 : Fin 1) c')) k
    = rowOut (fun k' => m ((c : Thread nD τ).loc main_arg0) (ix4 b h w k')) (m ((c : Thread nD τ).loc main_arg1))
      (fun j => m ((c : Thread nD τ).loc main_arg2) (ix1 j)) (m ((c : Thread nD τ).loc main_arg3))
      (fun c' => m ((c : Thread nD τ).loc main_arg4) (ix1 c')) k
  simp only [flatten_apply, shapeCast_a_1a_apply]

set_option backward.isDefEq.respectTransparency.types false in
/-- The run of the idealized kernel, read: the result array at the specification's value of the argument arrays, the
    arguments unchanged. -/
theorem run : θ_run defs (onTc (τ := τ) (main (F := Ideal))) ⟨m, fun _ => 0, ρ⟩ fun r => ∀ c : Dev nD,
      r.2.mem ((c.tc : Thread nD τ).loc main_v4)
        = out4 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v4 (Pipeline.mem_restRefs_of main_v4 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.Bsq.Run
end
-- ==== Proof.RefBridge.lean ====
/-
  The reference's value is the specification's `out4`.

  The reference flattens the array `[64, 32, 32, 512]` to `[64, 1024, 512]`, projects every row to `16` numbers, scales
  the projected row by its clamped Euclidean norm, replaces every scaled entry `z` by `z + (q − z)` with `q = 2·[z ≥ 0] − 1`,
  reshapes back to `[64, 32, 32, 16]` and maps the codes to `512` numbers. Read at an index, stage by stage: the two
  reshapes pair position `(b, h, w)` with `(b, h·32 + w)`; the projected row is `proj`; the scaled row is `unit` of it (the
  sum of squares starts from the literal zero, which adds nothing); and where the row, the projection matrix and its bias
  are real numbers the scaled entry is a real number, so `z + (q − z)` is `q`, the specification's `code`.
-/
import proofs.«164317_j970662609103_1_alg».proof.Proof.Gen.ReferenceIdeal.Read
import proofs.«164317_j970662609103_1_alg».proof.Proof.Spec

noncomputable section

open scoped BigOperators

namespace Cert.Bsq.Ref

open Idealize.ShloMosaic Idealize.ShloMosaic.ValueIdx Cert.ReferenceIdeal Cert.ReferenceIdeal.Read

/-- Position `(h, w)` of the `32 × 32` grid in the flattened axis of length `1024`. -/
abbrev flat (h w : Fin 32) : Fin 1024 := ⟨h.val * 32 + w.val, by omega⟩

/-! ## The index maps of the two reshapes and of the contractions, at coordinates -/

/-- The reshape `[64, 32, 32, 512] → [64, 1024, 512]` reads position `(b, h·32 + w, k)` from `(b, h, w, k)`. -/
theorem idx_v0_flat (b : Fin 64) (h w : Fin 32) (k : Fin 512) :
    idx_main_v0 (ix3 b (flat h w) k) = ix4 b h w k := by
  have hb := b.isLt; have hh := h.isLt; have hw := w.isLt; have hk := k.isLt
  funext a
  match a with
  | ⟨0, _⟩ => exact Fin.ext (by show ((b.val * 1024 + (h.val * 32 + w.val)) * 512 + k.val) / 524288 = b.val; omega)
  | ⟨1, _⟩ => exact Fin.ext (by show ((b.val * 1024 + (h.val * 32 + w.val)) * 512 + k.val) / 16384 % 32 = h.val; omega)
  | ⟨2, _⟩ => exact Fin.ext (by show ((b.val * 1024 + (h.val * 32 + w.val)) * 512 + k.val) / 512 % 32 = w.val; omega)
  | ⟨3, _⟩ => exact Fin.ext (by show ((b.val * 1024 + (h.val * 32 + w.val)) * 512 + k.val) % 512 = k.val; omega)

/-- The reshape `[64, 1024, 16] → [64, 32, 32, 16]` reads position `(b, h, w, j)` from `(b, h·32 + w, j)`. -/
theorem idx_v22_flat (b : Fin 64) (h w : Fin 32) (j : Fin 16) :
    idx_main_v22 (ix4 b h w j) = ix3 b (flat h w) j := by
  have hb := b.isLt; have hh := h.isLt; have hw := w.isLt; have hj := j.isLt
  funext a
  match a with
  | ⟨0, _⟩ => exact Fin.ext (by show (((b.val * 32 + h.val) * 32 + w.val) * 16 + j.val) / 16384 = b.val; omega)
  | ⟨1, _⟩ => exact Fin.ext (by show (((b.val * 32 + h.val) * 32 + w.val) * 16 + j.val) / 16 % 1024 = h.val * 32 + w.val; omega)
  | ⟨2, _⟩ => exact Fin.ext (by show (((b.val * 32 + h.val) * 32 + w.val) * 16 + j.val) % 16 = j.val; omega)

theorem lidx_v1_at (b : Fin 64) (t : Fin 1024) (j : Fin 16) (k : Fin 512) :
    lidx_main_v1 (ix3 b t j) k = ix3 b t k := by
  funext a; match a with | ⟨0, _⟩ => rfl | ⟨1, _⟩ => rfl | ⟨2, _⟩ => rfl

theorem ridx_v1_at (b : Fin 64) (t : Fin 1024) (j : Fin 16) (k : Fin 512) :
    ridx_main_v1 (ix3 b t j) k = ix2 k j := by
  funext a; match a with | ⟨0, _⟩ => rfl | ⟨1, _⟩ => rfl

theorem idx_v2_v3_at (b : Fin 64) (t : Fin 1024) (j : Fin 16) :
    idx_main_v2 (idx_main_v3 (ix3 b t j)) = ix1 j := by
  funext a; match a with | ⟨0, _⟩ => rfl

theorem idx_v6_at (b : Fin 64) (t : Fin 1024) (j k : Fin 16) :
    idx_main_v6 (idx_main_v7 (idx_main_v11 (ix3 b t j))) k = ix3 b t k := by
  funext a; match a with | ⟨0, _⟩ => rfl | ⟨1, _⟩ => rfl | ⟨2, _⟩ => rfl

theorem lidx_v23_at (b : Fin 64) (h w : Fin 32) (c : Fin 512) (k : Fin 16) :
    lidx_main_v23 (ix4 b h w c) k = ix4 b h w k := by
  funext a; match a with | ⟨0, _⟩ => rfl | ⟨1, _⟩ => rfl | ⟨2, _⟩ => rfl | ⟨3, _⟩ => rfl

theorem ridx_v23_at (b : Fin 64) (h w : Fin 32) (c : Fin 512) (k : Fin 16) :
    ridx_main_v23 (ix4 b h w c) k = ix2 k c := by
  funext a; match a with | ⟨0, _⟩ => rfl | ⟨1, _⟩ => rfl

theorem idx_v24_v25_at (b : Fin 64) (h w : Fin 32) (c : Fin 512) :
    idx_main_v24 (idx_main_v25 (ix4 b h w c)) = ix1 c := by
  funext a; match a with | ⟨0, _⟩ => rfl

/-! ## The stages of the reference, read at an index -/

section
variable (x0 : (⟨S64x32x32x512, .f32⟩ : BufTy).Contents (Elt Ideal)) (x1 : (⟨S512x16, .f32⟩ : BufTy).Contents (Elt Ideal))
  (x2 : (⟨S16, .f32⟩ : BufTy).Contents (Elt Ideal))

/-- The projected row at position `(b, t)` of the flattened array. -/
def z0 (b : Fin 64) (t : Fin 1024) : Fin 16 → EReal := fun j => val_main_v4 (F := Ideal) x0 x1 x2 (ix3 b t j)

/-- At `t = h·32 + w` it is the specification's projection of the row `x[b, h, w, ·]`. -/
theorem z0_flat (b : Fin 64) (h w : Fin 32) :
    z0 x0 x1 x2 b (flat h w) = proj (fun k => x0 (ix4 b h w k)) x1 (fun j => x2 (ix1 j)) := by
  funext j
  unfold z0 proj
  rw [val_main_v4_apply, val_main_v1_apply, val_main_v3_apply, val_main_v2_apply, idx_v2_v3_at]
  refine congrArg (· + x2 (ix1 j)) (Finset.sum_congr rfl fun k _ => ?_)
  rw [val_main_v0_apply, lidx_v1_at, ridx_v1_at, idx_v0_flat]

/-- The scaled row: the quotient by the clamped norm. The host's sum starts from the literal zero. -/
theorem v12_at (b : Fin 64) (t : Fin 1024) (j : Fin 16) :
    val_main_v12 (F := Ideal) x0 x1 x2 (ix3 b t j) = unit (z0 x0 x1 x2 b t) j := by
  rw [val_main_v12_apply, val_main_v11_apply, val_main_v10_apply, val_main_v8_apply, val_main_v7_apply, val_main_v6_apply,
    val_main_v9_apply, val_main_cst_0_apply, val_main_cst_apply]
  simp only [idx_v6_at, val_main_v5_apply]
  show Ideal.div _ (max (Ideal.sqrt (Ideal.ofBits .f32 0x00000000#32 + _)) _) = _
  rw [Ideal.ofBits_zero_f32, zero_add]
  rfl

/-- The straight-through quantizer is the sign code where the scaled entry is a real number. -/
theorem v21_at (b : Fin 64) (t : Fin 1024) (j : Fin 16) (hz : ∃ r : ℝ, unit (z0 x0 x1 x2 b t) j = (r : EReal)) :
    val_main_v21 (F := Ideal) x0 x1 x2 (ix3 b t j) = code (unit (z0 x0 x1 x2 b t) j) := by
  obtain ⟨r, hr⟩ := hz
  rw [val_main_v21_apply, val_main_v20_apply, val_main_v19_apply, val_main_v17_apply, val_main_v15_apply, val_main_v14_apply,
    val_main_v16_apply, val_main_v18_apply, val_main_v13_apply, val_main_cst_1_apply, val_main_cst_2_apply, val_main_cst_3_apply,
    v12_at, hr]
  exact ste_real r _

end

/-! ## The reference's value is the specification's -/

/-- Entry `(b, h, w, c)` of the reference's result is entry `c` of the image of the row `x[b, h, w, ·]`, the inputs of the
    projection being real numbers. -/
theorem v26_at
    (x0 : (⟨S64x32x32x512, .f32⟩ : BufTy).Contents (Elt Ideal)) (x1 : (⟨S512x16, .f32⟩ : BufTy).Contents (Elt Ideal))
    (x2 : (⟨S16, .f32⟩ : BufTy).Contents (Elt Ideal)) (x3 : (⟨S16x512, .f32⟩ : BufTy).Contents (Elt Ideal))
    (x4 : (⟨S512, .f32⟩ : BufTy).Contents (Elt Ideal))
    (hx : ∀ i, ∃ r : ℝ, x0 i = (r : EReal)) (hw : ∀ i, ∃ r : ℝ, x1 i = (r : EReal)) (hb : ∀ i, ∃ r : ℝ, x2 i = (r : EReal))
    (b : Fin 64) (h w : Fin 32) (c : Fin 512) :
    val_main_v26 (F := Ideal) x0 x1 x2 x3 x4 (ix4 b h w c)
      = rowOut (fun k => x0 (ix4 b h w k)) x1 (fun j => x2 (ix1 j)) x3 (fun c' => x4 (ix1 c')) c := by
  -- the projected row at `(b, h, w)` is real, hence so is its scaling
  have hreal : ∀ j, ∃ r : ℝ, unit (z0 x0 x1 x2 b (flat h w)) j = (r : EReal) := fun j =>
    unit_real (fun j' => by
      rw [z0_flat]
      exact proj_real (fun k => hx _) hw (fun j'' => hb _) j') j
  rw [val_main_v26_apply, val_main_v23_apply, val_main_v25_apply, val_main_v24_apply, idx_v24_v25_at]
  unfold rowOut recon
  refine congrArg (· + x4 (ix1 c)) (Finset.sum_congr rfl fun k _ => ?_)
  rw [val_main_v22_apply, lidx_v23_at, ridx_v23_at, idx_v22_flat, v21_at x0 x1 x2 _ _ _ (hreal k), z0_flat]

theorem ref_eq_out4
    (x0 : (⟨S64x32x32x512, .f32⟩ : BufTy).Contents (Elt Ideal)) (x1 : (⟨S512x16, .f32⟩ : BufTy).Contents (Elt Ideal))
    (x2 : (⟨S16, .f32⟩ : BufTy).Contents (Elt Ideal)) (x3 : (⟨S16x512, .f32⟩ : BufTy).Contents (Elt Ideal))
    (x4 : (⟨S512, .f32⟩ : BufTy).Contents (Elt Ideal))
    (hx : ∀ i, ∃ r : ℝ, x0 i = (r : EReal)) (hw : ∀ i, ∃ r : ℝ, x1 i = (r : EReal)) (hb : ∀ i, ∃ r : ℝ, x2 i = (r : EReal)) :
    Cert.ReferenceIdeal.Read.val_main_v26 (F := Ideal) x0 x1 x2 x3 x4 = Cert.Bsq.out4 x0 x1 x2 x3 x4 := by
  funext i
  obtain ⟨b, h, w, c, rfl⟩ : ∃ (b : Fin 64) (h w : Fin 32) (c : Fin 512), i = ix4 b h w c := ⟨i 0, i 1, i 2, i 3, eq_ix4 i⟩
  exact v26_at x0 x1 x2 x3 x4 hx hw hb b h w c

end Cert.Bsq.Ref

end
-- ==== Proof.Finite.lean ====
/-
  Under the precondition every entry of the row array, of the projection matrix and of its bias is a real number.

  The precondition is the conjunction, over the five inputs, of "every entry `a` has `|a| < +∞`". In the extended
  reals `|a| = max a (−a)`, and `max a (−a) < ⊤` rules out both `a = ⊤` and `a = ⊥` (there `−a = ⊤`), which leaves
  the real numbers. The conjunction is split, each "for all entries" is read back from its reduction by `and`, and
  the entry fact is applied to the first three inputs.
-/
import proofs.«164317_j970662609103_1_alg».proof.Pre_finite_inputs
import Idealize.ShloMosaic.PureOps.Ideal
import Idealize.ShloMosaic.PureOps.Ideal.Laws
import Idealize.ShloMosaic.Lib.ReduceAll
import Idealize.ShloMosaic.Lib.ValueIdx

namespace Cert.Bsq.Finite

open Idealize.ShloMosaic Cert.Pre_finite_inputs

/-- The pattern `0x7F800000` is `+∞`. -/
theorem inf_eq_top : Ideal.ofBits .f32 0x7F800000#32 = (⊤ : EReal) := by
  simp [Ideal.ofBits, Ideal.ieee]

/-- An extended real whose absolute value is below `+∞` is a real number. -/
theorem real_of_abs_lt (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  rw [Ideal.hostAbsf_def, Ideal.absf_def, Ideal.cmpf_def, Ideal.ofBits_def, inf_eq_top] at h
  have hlt : max a (-a) < (⊤ : EReal) := by
    by_contra hn
    simp [Ideal.cmp, hn] at h
  induction a using EReal.rec with
  | bot => simp at hlt
  | coe r => exact ⟨r, rfl⟩
  | top => simp at hlt

/-- The shape with no axes has exactly one index. -/
instance subsingleton_S_ : Subsingleton S_.Idx := ⟨fun a b => funext fun d => d.elim0⟩

/-- Where the precondition holds, every entry of the first three inputs is a real number. -/
theorem real_of_pre [Cert.Pre_finite_inputs.Facts]
    (x0 : FVec Ideal S64x32x32x512 .f32) (x1 : FVec Ideal S512x16 .f32) (x2 : FVec Ideal S16 .f32)
    (x3 : FVec Ideal S16x512 .f32) (x4 : FVec Ideal S512 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn, Cert.Pre_finite_inputs.fn_part1] at h0
  dsimp only [andi] at h0
  obtain ⟨h0123, -⟩ := IntOp.andi_eq_one.1 h0
  obtain ⟨h012, -⟩ := IntOp.andi_eq_one.1 h0123
  obtain ⟨h01, e2⟩ := IntOp.andi_eq_one.1 h012
  obtain ⟨e0, e1⟩ := IntOp.andi_eq_one.1 h01
  exact ⟨fun i => real_of_abs_lt (x0 i) (Host.reduce_andi_all _ _ _ _ _ e0 i),
    fun i => real_of_abs_lt (x1 i) (Host.reduce_andi_all _ _ _ _ _ e1 i),
    fun i => real_of_abs_lt (x2 i) (Host.reduce_andi_all _ _ _ _ _ e2 i)⟩

end Cert.Bsq.Finite
-- ==== Proof.lean ====
/-
  The certificate of a fused binary-spherical-quantization layer against its reference.

  Both programs map every row `x` of the last axis of a `[64, 32, 32, 512]` array to
  `q · Wr + br`, where `z0 = x · Wp + bp` (16 numbers), `z = z0 / max(‖z0‖₂, ε)` and `q = 2 · [z ≥ 0] − 1`.
  The kernel computes this on the array flattened to `[65536, 512]`, 2048 rows per grid point, its two matrix products
  on values narrowed to a shorter float format (the identity on the extended reals); the reference works on
  `[64, 1024, ·]` and writes the quantizer in its straight-through form `z + (q − z)`.

  On the extended reals the two agree where `z` is a real number: then `z + (q − z) = q` exactly. Under the
  precondition every entry of `x`, `Wp` and `bp` is a real number, so `z0` is; the clamped norm is at least `ε > 0`,
  hence not zero, and a real number divided by a nonzero extended real is a real number. Everything else is the same
  operation on both sides: a matrix product into a zero accumulator and the host's contraction are one sum; the lane
  sum and the host's sum from zero are one sum; square root, maximum, quotient and comparison are the same functions;
  the comparison's bit widened and read signed is the bit read unsigned.

  `Proof/Spec.lean` states the map and its algebra; `Proof/KernelRow.lean` reads the kernel body's stored value at an
  entry; `Proof/KernelValue.lean` reads the kernel's result array off its run; `Proof/RefBridge.lean` reads the
  reference's stages; `Proof/Finite.lean` reads the precondition. The frames of the two kernels are their runs with
  the result dropped; the reference's frame is its run with the result dropped; nothing was rewritten between the
  kernel and its idealization.
-/
import proofs.«164317_j970662609103_1_alg».proof.Defs
import proofs.«164317_j970662609103_1_alg».proof.Proof.Gen.Kernel
import proofs.«164317_j970662609103_1_alg».proof.Proof.Gen.Kernel.Skeleton
import proofs.«164317_j970662609103_1_alg».proof.Proof.Gen.Kernel.Launch
import proofs.«164317_j970662609103_1_alg».proof.Proof.Gen.Kernel.Points
import proofs.«164317_j970662609103_1_alg».proof.Proof.Gen.Kernel.Frame
import proofs.«164317_j970662609103_1_alg».proof.Proof.Gen.KernelIdeal
import proofs.«164317_j970662609103_1_alg».proof.Proof.Gen.KernelIdeal.Skeleton
import proofs.«164317_j970662609103_1_alg».proof.Proof.Gen.KernelIdeal.Launch
import proofs.«164317_j970662609103_1_alg».proof.Proof.Gen.KernelIdeal.Points
import proofs.«164317_j970662609103_1_alg».proof.Proof.Gen.KernelIdeal.Frame
import proofs.«164317_j970662609103_1_alg».proof.Proof.Gen.ReferenceIdeal
import proofs.«164317_j970662609103_1_alg».proof.Proof.Gen.Pre_finite_inputs
import proofs.«164317_j970662609103_1_alg».proof.Proof.Gen.ReferenceIdeal.Run
import proofs.«164317_j970662609103_1_alg».proof.Proof.Gen.ReferenceIdeal.Read
import proofs.«164317_j970662609103_1_alg».proof.Proof.KernelValue
import proofs.«164317_j970662609103_1_alg».proof.Proof.RefBridge
import proofs.«164317_j970662609103_1_alg».proof.Proof.Finite
import Idealize.ShloMosaic.Adequacy
import Idealize.ShloMosaic.Init

noncomputable section

namespace Cert.Proof

open Idealize.ShloMosaic Idealize.ShloMosaic.TcCoe Idealize.SL.Sem

/-- Both idealized programs end with the specification's value of the argument arrays: the kernel by its run read
    back, the reference by its stages, the precondition making the projected and scaled row real. -/
theorem algebraic : Cert.algebraic_KernelIdeal_ReferenceIdeal := by
  intro m ρ m' ρ' hpre hagree
  refine ⟨fun c => Cert.Bsq.out4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), Cert.Bsq.Run.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  obtain ⟨hx, hw, hb⟩ := Cert.Bsq.Finite.real_of_pre _ _ _ _ _ (hpre c)
  rw [Cert.ReferenceIdeal.Read.val_main_v26_eq, e0, e1, e2, e3, e4]
  exact Cert.Bsq.Ref.ref_eq_out4 _ _ _ _ _ hx hw hb

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
